-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x91x3 : Shape := ⟨3, ![64, 91, 3]⟩
abbrev S64x3 : Shape := ⟨2, ![64, 3]⟩
abbrev S_ : Shape := ⟨0, ![]⟩

class Facts : Prop where
  bcast_S_S64x91x3 : S_.BroadcastsInDim S64x91x3 (![] : Fin 0 → Fin S64x91x3.rank)
  reducesTo_S64x91x3_S_d0_1_2 : S64x91x3.ReducesTo [0, 1, 2] S_
  h_S_ : 0 < S_.numel
  bcast_S_S64x3 : S_.BroadcastsInDim S64x3 (![] : Fin 0 → Fin S64x3.rank)
  reducesTo_S64x3_S_d0_1 : S64x3.ReducesTo [0, 1] S_

variable [Facts]

def fn {F : FTy → Type} [FloatOps F] (main_arg0 : FVec F S64x91x3 .f32) (main_arg1 : FVec F S64x3 .f32) (main_arg2 : FVec F S64x3 .f32) : IVec S_ 1 :=
  let main_v0 : FVec F S64x91x3 .f32 := Host.absf main_arg0
  let main_cst : FVec F S_ .f32 := constant S_ .f32 0x7F800000#32
  let main_v1 : FVec F S64x91x3 .f32 := broadcastInDim S64x91x3 ![] bcast_S_S64x91x3 main_cst
  let main_v2 : IVec S64x91x3 1 := cmpf .olt main_v0 main_v1
  let main_c : IVec S_ 1 := constantI S_ 1 1#1
  let main_v3 : IVec S_ 1 := (fun x v => Host.reduce IntOp.andi x v reducesTo_S64x91x3_S_d0_1_2 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x3 .f32 := Host.absf main_arg2
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  main_v13
-- ==== Kernel.lean ====
abbrev S64x91x3 : Shape := ⟨3, ![64, 91, 3]⟩
abbrev S64x3 : Shape := ⟨2, ![64, 3]⟩
abbrev S8x91x3 : Shape := ⟨3, ![8, 91, 3]⟩
abbrev S8x3 : Shape := ⟨2, ![8, 3]⟩
abbrev S8x91x1 : Shape := ⟨3, ![8, 91, 1]⟩
abbrev S8x91 : Shape := ⟨2, ![8, 91]⟩
abbrev S8x1 : Shape := ⟨2, ![8, 1]⟩
abbrev S8 : Shape := ⟨1, ![8]⟩

abbrev nBuf : Space → Nat
  | .hbm => 4
  | .vmem => 8
  | .smem => 0
  | _ => 0

abbrev bufTy : (tb : Table) → Fin (tcTables nBuf tb) → BufTy
  | .hbm, ⟨0, _⟩ => ⟨S64x91x3, .f32⟩
  | .hbm, ⟨1, _⟩ => ⟨S64x3, .f32⟩
  | .hbm, ⟨2, _⟩ => ⟨S64x3, .f32⟩
  | .hbm, ⟨3, _⟩ => ⟨S64x91x3, .f32⟩
  | .local _ .vmem, ⟨0, _⟩ => ⟨S8x91x3, .f32⟩
  | .local _ .vmem, ⟨1, _⟩ => ⟨S8x91x3, .f32⟩
  | .local _ .vmem, ⟨2, _⟩ => ⟨S8x3, .f32⟩
  | .local _ .vmem, ⟨3, _⟩ => ⟨S8x3, .f32⟩
  | .local _ .vmem, ⟨4, _⟩ => ⟨S8x3, .f32⟩
  | .local _ .vmem, ⟨5, _⟩ => ⟨S8x3, .f32⟩
  | .local _ .vmem, ⟨6, _⟩ => ⟨S8x91x3, .f32⟩
  | .local _ .vmem, ⟨7, _⟩ => ⟨S8x91x3, .f32⟩
  | _, _ => ⟨S64x91x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x91x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x91x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x91x3_S8x91x3_0_0_0 : ∀ a, (![0, 0, 0] : Fin 3 → Nat) a + S8x91x3.size a ≤ S8x91x3.size a
  h_S8x91x3 : 0 < S8x91x3.numel
  slices_S8x91x3_o0_0_0_S8x91x1 : S8x91x3.Slices ![0, 0, 0] S8x91x1
  shapeCasts_S8x91x1_S8x91 : S8x91x1.ShapeCasts S8x91
  slices_S8x91x3_o0_0_1_S8x91x1 : S8x91x3.Slices ![0, 0, 1] S8x91x1
  slices_S8x91x3_o0_0_2_S8x91x1 : S8x91x3.Slices ![0, 0, 2] S8x91x1
  inb_S8x3_S8x3_0_0 : ∀ a, (![0, 0] : Fin 2 → Nat) a + S8x3.size a ≤ S8x3.size a
  h_S8x3 : 0 < S8x3.numel
  slices_S8x3_o0_0_S8x1 : S8x3.Slices ![0, 0] S8x1
  shapeCasts_S8x1_S8 : S8x1.ShapeCasts S8
  slices_S8x3_o0_1_S8x1 : S8x3.Slices ![0, 1] S8x1
  slices_S8x3_o0_2_S8x1 : S8x3.Slices ![0, 2] S8x1
  shapeCasts_S8_S8x1 : S8.ShapeCasts S8x1
  broadcasts_S8x1_S8x91 : S8x1.Broadcasts S8x91
  shapeCasts_S8x91_S8x91x1 : S8x91.ShapeCasts S8x91x1
  concatenates_S8x91x1_S8x91x1_S8x91x1_S8x91x3_d2 : Shape.Concatenates [S8x91x1, S8x91x1, S8x91x1] S8x91x3 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x91x3.size a ≤ S64x91x3.size a
  hwx0_0 : ∀ i : grid0.Coords, EltTy.bits .f32 = 32 ∨ (Rect.block (s := S64x91x3) S8x91x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S64x3.size a
  hwx0_1 : ∀ i : grid0.Coords, EltTy.bits .f32 = 32 ∨ (Rect.block (s := S64x3) S8x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S64x3.size a
  hwx0_2 : ∀ i : grid0.Coords, EltTy.bits .f32 = 32 ∨ (Rect.block (s := S64x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x91x3.size a ≤ S64x91x3.size a
  hwx0_3 : ∀ i : grid0.Coords, EltTy.bits .f32 = 32 ∨ (Rect.block (s := S64x91x3) S8x91x3.size (cc0_transform_3 i) (hinb0_3 i)).WholeWords (EltTy.packing .f32)

variable [Facts₀]

abbrev win0_0 : Pipeline.Window sig grid0 :=
  Pipeline.Window.ofSpec (Memref.whole main_arg0) S8x91x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x91x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x91x3 : Shape := ⟨3, ![64, 91, 3]⟩
abbrev S64x3 : Shape := ⟨2, ![64, 3]⟩
abbrev S_ : Shape := ⟨0, ![]⟩
abbrev S64x1 : Shape := ⟨2, ![64, 1]⟩
abbrev S64x4 : Shape := ⟨2, ![64, 4]⟩
abbrev S64 : Shape := ⟨1, ![64]⟩
abbrev S64x9 : Shape := ⟨2, ![64, 9]⟩
abbrev S64x3x3 : Shape := ⟨3, ![64, 3, 3]⟩
abbrev S64x1x3 : Shape := ⟨3, ![64, 1, 3]⟩

abbrev nBuf : Space → Nat
  | .hbm => 111
  | .vmem => 0
  | .smem => 0
  | _ => 0

abbrev bufTy : (tb : Table) → Fin (tcTables nBuf tb) → BufTy
  | .hbm, ⟨0, _⟩ => ⟨S64x91x3, .f32⟩
  | .hbm, ⟨1, _⟩ => ⟨S64x3, .f32⟩
  | .hbm, ⟨2, _⟩ => ⟨S64x3, .f32⟩
  | .hbm, ⟨3, _⟩ => ⟨S_, .f32⟩
  | .hbm, ⟨4, _⟩ => ⟨S64x1, .f32⟩
  | .hbm, ⟨5, _⟩ => ⟨S64x4, .f32⟩
  | .hbm, ⟨6, _⟩ => ⟨S64x4, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S64x1, .f32⟩
  | .hbm, ⟨11, _⟩ => ⟨S64x4, .f32⟩
  | .hbm, ⟨12, _⟩ => ⟨S64x4, .f32⟩
  | .hbm, ⟨13, _⟩ => ⟨S64x1, .f32⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x1, .f32⟩
  | .hbm, ⟨98, _⟩ => ⟨S64x1, .f32⟩
  | .hbm, ⟨99, _⟩ => ⟨S64x1, .f32⟩
  | .hbm, ⟨100, _⟩ => ⟨S64x1, .f32⟩
  | .hbm, ⟨101, _⟩ => ⟨S64x1, .f32⟩
  | .hbm, ⟨102, _⟩ => ⟨S64x1, .f32⟩
  | .hbm, ⟨103, _⟩ => ⟨S64x1, .f32⟩
  | .hbm, ⟨104, _⟩ => ⟨S64x1, .f32⟩
  | .hbm, ⟨105, _⟩ => ⟨S64x9, .f32⟩
  | .hbm, ⟨106, _⟩ => ⟨S64x3x3, .f32⟩
  | .hbm, ⟨107, _⟩ => ⟨S64x91x3, .f32⟩
  | .hbm, ⟨108, _⟩ => ⟨S64x1x3, .f32⟩
  | .hbm, ⟨109, _⟩ => ⟨S64x91x3, .f32⟩
  | .hbm, ⟨110, _⟩ => ⟨S64x91x3, .f32⟩
  | _, _ => ⟨S64x91x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩

abbrev nD : Nat := 1
abbrev τ : Topo := Topo.v7x

variable {F : FTy → Type} [FloatOps F]

class Facts₀ : Prop where
  bcast_S_S64x1 : S_.BroadcastsInDim S64x1 (![] : Fin 0 → Fin S64x1.rank)
  concatenates_S64x1_S64x3_S64x4_d1 : Shape.Concatenates [S64x1, S64x3] S64x4 1
  reducesTo_S64x4_S64_d1 : S64x4.ReducesTo [1] S64
  h_S_ : 0 < S_.numel
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S64 : S_.BroadcastsInDim S64 (![] : Fin 0 → Fin S64.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  shapeCasts_S64x9_S64x3x3 : S64x9.ShapeCasts S64x3x3
  bcast_S64x3_S64x1x3_0_2 : S64x3.BroadcastsInDim S64x1x3 (![0, 2] : Fin 2 → Fin S64x1x3.rank)
  bcast_S64x1x3_S64x91x3_0_1_2 : S64x1x3.BroadcastsInDim S64x91x3 (![0, 1, 2] : Fin 3 → Fin S64x91x3.rank)
  dot_S64x91x3_S64x3x3_S64x91x3_2_1_1_2_0_0_wf : DotDims.WF S64x91x3 S64x3x3 S64x91x3 [2] [1] [1] [2] [0] [0]

variable [Facts₀]

def dot_S64x91x3_S64x3x3_S64x91x3_2_1_1_2_0_0 : DotDims S64x91x3 S64x3x3 S64x91x3 where
  lhsContracting := [2]
  rhsContracting := [1]
  lhsNonContracting := [1]
  rhsNonContracting := [2]
  lhsBatch := [0]
  rhsBatch := [0]
  wf := dot_S64x91x3_S64x3x3_S64x91x3_2_1_1_2_0_0_wf

class Facts : Prop extends Facts₀ where

variable [Facts]
-- ==== Proof.Layout.lean ====
/-
  Reading a block's re-laid values at an index.

  The kernel body works on one block of eight batch rows: the points' block has shape [8, 91, 3], the rotation
  and translation blocks [8, 3]. It never indexes: it slices a coordinate plane or a column out of a block,
  drops or adds a unit axis, and spreads a per-row column along the 91 points. Each lemma below says which ONE
  element of the operand such a chain reads at a given index, with every index built from literal coordinates
  (a row p < 8, a point q < 91, a component k < 3).
-/
import Idealize.ShloMosaic.Lib.Pipeline.Value
import Idealize.ShloMosaic.Lib.ValueIdx

noncomputable section

namespace Cert.BlockRead

open Idealize.ShloMosaic Idealize.ShloMosaic.ValueIdx

variable {α : Type}

/-- The shapes of a block of eight rows: points, one coordinate plane with and without its unit axis,
    the per-row triples, one column of them with and without its unit axis. -/
abbrev Pts : Shape := ⟨3, ![8, 91, 3]⟩
abbrev Plane1 : Shape := ⟨3, ![8, 91, 1]⟩
abbrev Plane : Shape := ⟨2, ![8, 91]⟩
abbrev Tri : Shape := ⟨2, ![8, 3]⟩
abbrev Col1 : Shape := ⟨2, ![8, 1]⟩
abbrev Col : Shape := ⟨1, ![8]⟩

/-- Coordinate `k` of every point, as a plane: the slice of the points' block at offset `k` on the last axis, its
    unit axis dropped, holds at (p, q) the block's element (p, q, k). -/
theorem plane_apply (k : Nat) (hk : k < 3) (x : Pts.Idx → α) (hs : Pts.Slices ![0, 0, k] Plane1)
    (hc : Plane1.ShapeCasts Plane) (p : Fin 8) (q : Fin 91) :
    shapeCast Plane (extractStridedSlice Plane1 ![0, 0, k] x hs) hc (ix2 p q) = x (ix3 p q ⟨k, hk⟩) := by
  refine (shapeCast_apply _ hc (ix2 p q) (ix3 p q (0 : Fin 1)) ?_).trans ?_
  · rw [Shape.rowMajor_val_three, Shape.rowMajor_val_two]
    show (p.val * 91 + q.val) * 1 + 0 = p.val * 91 + q.val
    omega
  · exact extractStridedSlice_apply _ x hs _ (ix3 p q ⟨k, hk⟩) (fun a => match a with
      | ⟨0, _⟩ => by show p.val = 0 + p.val; omega
      | ⟨1, _⟩ => by show q.val = 0 + q.val; omega
      | ⟨2, _⟩ => by show k = k + 0; omega)

/-- Component `k` of every row's triple, as a vector over the rows: the slice at offset `k` on the last axis,
    its unit axis dropped, holds at row p the block's element (p, k). -/
theorem col_apply (k : Nat) (hk : k < 3) (x : Tri.Idx → α) (hs : Tri.Slices ![0, k] Col1)
    (hc : Col1.ShapeCasts Col) (p : Fin 8) :
    shapeCast Col (extractStridedSlice Col1 ![0, k] x hs) hc (ix1 p) = x (ix2 p ⟨k, hk⟩) := by
  refine (shapeCast_apply _ hc (ix1 p) (ix2 p (0 : Fin 1)) ?_).trans ?_
  · rw [Shape.rowMajor_val_two, Shape.rowMajor_val_one]
    show p.val * 1 + 0 = p.val
    omega
  · exact extractStridedSlice_apply _ x hs _ (ix2 p ⟨k, hk⟩) (fun a => match a with
      | ⟨0, _⟩ => by show p.val = 0 + p.val; omega
      | ⟨1, _⟩ => by show k = k + 0; omega)

/-- A per-row vector given a unit axis and spread along the points holds at (p, q) the vector's element p. -/
theorem spread_apply (v : Col.Idx → α) (hc : Col.ShapeCasts Col1) (hb : Col1.Broadcasts Plane) (p : Fin 8) (q : Fin 91) :
    broadcastTo Plane (shapeCast Col1 v hc) hb (ix2 p q) = v (ix1 p) := by
  refine (broadcastTo_apply _ hb (ix2 p q) (ix2 p (0 : Fin 1)) (fun a => match a with
      | ⟨0, _⟩ => by show p.val = if (8 : Nat) = 1 then 0 else p.val; rw [if_neg (by decide)]
      | ⟨1, _⟩ => by show 0 = if (1 : Nat) = 1 then 0 else q.val; rw [if_pos rfl])).trans ?_
  refine shapeCast_apply v hc (ix2 p (0 : Fin 1)) (ix1 p) ?_
  rw [Shape.rowMajor_val_two, Shape.rowMajor_val_one]
  show p.val = p.val * 1 + 0
  omega

/-- Component `k` of every row's triple spread along the points holds at (p, q) the block's element (p, k). -/
theorem spread_col_apply (k : Nat) (hk : k < 3) (x : Tri.Idx → α) (hs : Tri.Slices ![0, k] Col1)
    (hb : Col1.Broadcasts Plane) (p : Fin 8) (q : Fin 91) :
    broadcastTo Plane (extractStridedSlice Col1 ![0, k] x hs) hb (ix2 p q) = x (ix2 p ⟨k, hk⟩) := by
  refine (broadcastTo_apply _ hb (ix2 p q) (ix2 p (0 : Fin 1)) (fun a => match a with
      | ⟨0, _⟩ => by show p.val = if (8 : Nat) = 1 then 0 else p.val; rw [if_neg (by decide)]
      | ⟨1, _⟩ => by show 0 = if (1 : Nat) = 1 then 0 else q.val; rw [if_pos rfl])).trans ?_
  exact extractStridedSlice_apply _ x hs _ (ix2 p ⟨k, hk⟩) (fun a => match a with
      | ⟨0, _⟩ => by show p.val = 0 + p.val; omega
      | ⟨1, _⟩ => by show k = k + 0; omega)

/-- A plane given a trailing unit axis holds at (p, q, 0) the plane's element (p, q). -/
theorem unit_apply (v : Plane.Idx → α) (hc : Plane.ShapeCasts Plane1) (p : Fin 8) (q : Fin 91) (z : Fin 1) :
    shapeCast Plane1 v hc (ix3 p q z) = v (ix2 p q) := by
  refine shapeCast_apply v hc (ix3 p q z) (ix2 p q) ?_
  rw [Shape.rowMajor_val_three, Shape.rowMajor_val_two]
  show p.val * 91 + q.val = (p.val * 91 + q.val) * 1 + z.val
  have := z.isLt
  omega

/-! ### Three planes laid side by side on the last axis

The block the body stores is three planes, each given a trailing unit axis, joined along that axis: component
`n` of point (p, q) is plane `n` at (p, q). One lemma per component. -/

private theorem off_axis {i : Plane1.Idx} {j : Pts.Idx} (h0 : (i 0).val = (j 0).val) (h1 : (i 1).val = (j 1).val) :
    ∀ b : Fin Plane1.rank, b.cast (rfl : Plane1.rank = Pts.rank) ≠ (2 : Fin 3) → (i b).val = (j (b.cast rfl)).val :=
  fun b => match b with
    | ⟨0, _⟩ => fun _ => h0
    | ⟨1, _⟩ => fun _ => h1
    | ⟨2, _⟩ => fun h => absurd rfl h

theorem stack0_apply (u0 u1 u2 : Plane.Idx → α) (hc : Plane.ShapeCasts Plane1)
    (hcat : Shape.Concatenates [Plane1, Plane1, Plane1] Pts 2) (p : Fin 8) (q : Fin 91) :
    concatenate Pts 2 [⟨Plane1, shapeCast Plane1 u0 hc⟩, ⟨Plane1, shapeCast Plane1 u1 hc⟩, ⟨Plane1, shapeCast Plane1 u2 hc⟩]
      hcat (ix3 p q 0) = u0 (ix2 p q) :=
  (concatenate_apply_piece (t := Pts) (2 : Fin 3)
    [⟨Plane1, shapeCast Plane1 u0 hc⟩, ⟨Plane1, shapeCast Plane1 u1 hc⟩, ⟨Plane1, shapeCast Plane1 u2 hc⟩] hcat (ix3 p q 0)
    0 (show (0 : Nat) < 3 by decide) Plane1 (shapeCast Plane1 u0 hc) rfl rfl 0 rfl
    (ix3 p q (0 : Fin 1)) (off_axis rfl rfl) rfl).trans (unit_apply u0 hc p q 0)

theorem stack1_apply (u0 u1 u2 : Plane.Idx → α) (hc : Plane.ShapeCasts Plane1)
    (hcat : Shape.Concatenates [Plane1, Plane1, Plane1] Pts 2) (p : Fin 8) (q : Fin 91) :
    concatenate Pts 2 [⟨Plane1, shapeCast Plane1 u0 hc⟩, ⟨Plane1, shapeCast Plane1 u1 hc⟩, ⟨Plane1, shapeCast Plane1 u2 hc⟩]
      hcat (ix3 p q 1) = u1 (ix2 p q) :=
  (concatenate_apply_piece (t := Pts) (2 : Fin 3)
    [⟨Plane1, shapeCast Plane1 u0 hc⟩, ⟨Plane1, shapeCast Plane1 u1 hc⟩, ⟨Plane1, shapeCast Plane1 u2 hc⟩] hcat (ix3 p q 1)
    1 (show (1 : Nat) < 3 by decide) Plane1 (shapeCast Plane1 u1 hc) rfl rfl 1 rfl
    (ix3 p q (0 : Fin 1)) (off_axis rfl rfl) rfl).trans (unit_apply u1 hc p q 0)

theorem stack2_apply (u0 u1 u2 : Plane.Idx → α) (hc : Plane.ShapeCasts Plane1)
    (hcat : Shape.Concatenates [Plane1, Plane1, Plane1] Pts 2) (p : Fin 8) (q : Fin 91) :
    concatenate Pts 2 [⟨Plane1, shapeCast Plane1 u0 hc⟩, ⟨Plane1, shapeCast Plane1 u1 hc⟩, ⟨Plane1, shapeCast Plane1 u2 hc⟩]
      hcat (ix3 p q 2) = u2 (ix2 p q) :=
  (concatenate_apply_piece (t := Pts) (2 : Fin 3)
    [⟨Plane1, shapeCast Plane1 u0 hc⟩, ⟨Plane1, shapeCast Plane1 u1 hc⟩, ⟨Plane1, shapeCast Plane1 u2 hc⟩] hcat (ix3 p q 2)
    2 (show (2 : Nat) < 3 by decide) Plane1 (shapeCast Plane1 u2 hc) rfl rfl 2 rfl
    (ix3 p q (0 : Fin 1)) (off_axis rfl rfl) rfl).trans (unit_apply u2 hc p q 0)

end Cert.BlockRead

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Quat.lean ====
/-
  The mathematics of the certificate, free of any program.

  A row (b, c, d) of the rotation input stands for the quaternion (1, b, c, d); normalised, q = (1, b, c, d) / |.|,
  it gives a 3 x 3 rotation matrix R(q), and every point (x, y, z) of that row's batch is sent to
  (x, y, z) · R(q) + t.  Both programs compute exactly this, with R(q)'s nine entries and the three-term
  products grouped the same way; they differ only in HOW q is normalised:

    * one multiplies by the reciprocal square root of 1 + b² + c² + d²   (`quatMul`),
    * the other divides by the square root of 0 + (1·1 + b² + c² + d²)   (`quatDiv`).

  On the extended reals these are different functions (at an infinite b one is 0·∞-shaped, the other ∞/∞-shaped),
  but for REAL b, c, d the sum of squares is a real number ≥ 1, its root is a positive real, and multiplying by
  the reciprocal of the root is dividing by the root: `quatMul_eq_quatDiv`.  That is the only law the certificate
  needs, and the only place it uses that the rotation input is finite; the points and the translations may be
  any extended reals, since everything after the normalisation is the same expression on both sides.
-/
import Idealize.ShloMosaic.PureOps.Ideal
import Idealize.ShloMosaic.Lib.ValueIdx
import proofs.«109500_j20237885898851_1_alg».proof.Proof.LibCoe

noncomputable section

namespace Cert.Quat

open Idealize.ShloMosaic Idealize.ShloMosaic.ValueIdx
open Finset BigOperators

/-- The single-precision patterns of 0.0, 1.0 and 2.0, read as extended reals. -/
abbrev zeroE : EReal := Ideal.ofBits .f32 0x00000000#32
abbrev oneE : EReal := Ideal.ofBits .f32 0x3F800000#32
abbrev twoE : EReal := Ideal.ofBits .f32 0x40000000#32

/-- 1 + b² + c² + d², summed left to right from the literal 1. -/
def normSq (b c d : EReal) : EReal := ((oneE + b * b) + c * c) + d * d

/-- The quaternion (1, b, c, d) normalised by MULTIPLYING with the reciprocal square root of `normSq`. -/
def quatMul (b c d : EReal) : Fin 4 → EReal :=
  ![Ideal.rsqrt (normSq b c d), b * Ideal.rsqrt (normSq b c d), c * Ideal.rsqrt (normSq b c d),
    d * Ideal.rsqrt (normSq b c d)]

/-- The unnormalised quaternion (1, b, c, d). -/
def vec4 (b c d : EReal) : Fin 4 → EReal := ![oneE, b, c, d]

/-- The sum of the squares of (1, b, c, d), folded onto the literal 0. -/
def sumSq (b c d : EReal) : EReal := zeroE + ∑ k : Fin 4, vec4 b c d k * vec4 b c d k

/-- The quaternion (1, b, c, d) normalised by DIVIDING each component by the square root of `sumSq`. -/
def quatDiv (b c d : EReal) : Fin 4 → EReal := fun k => Ideal.div (vec4 b c d k) (Ideal.sqrt (sumSq b c d))

/-- The rotation matrix of a quaternion q = (q₀, q₁, q₂, q₃), entry (row, column), each entry grouped as both
    programs group it. -/
def rot (q : Fin 4 → EReal) : Fin 3 → Fin 3 → EReal :=
  ![![((q 0 * q 0 + q 1 * q 1) - q 2 * q 2) - q 3 * q 3,
      (twoE * q 1) * q 2 - (twoE * q 0) * q 3,
      (twoE * q 1) * q 3 + (twoE * q 0) * q 2],
    ![(twoE * q 1) * q 2 + (twoE * q 0) * q 3,
      ((q 0 * q 0 - q 1 * q 1) + q 2 * q 2) - q 3 * q 3,
      (twoE * q 2) * q 3 - (twoE * q 0) * q 1],
    ![(twoE * q 1) * q 3 - (twoE * q 0) * q 2,
      (twoE * q 2) * q 3 + (twoE * q 0) * q 1,
      ((q 0 * q 0 - q 1 * q 1) - q 2 * q 2) + q 3 * q 3]]

/-- Component `n` of the transformed point: (x, y, z) against column `n` of the rotation, plus the translation. -/
def outAt (q : Fin 4 → EReal) (x y z t : EReal) (n : Fin 3) : EReal :=
  ((x * rot q 0 n + y * rot q 1 n) + z * rot q 2 n) + t

/-- The arrays' shapes: 64 batches of 91 points; one triple per batch. -/
abbrev Pts : Shape := ⟨3, ![64, 91, 3]⟩
abbrev Tri : Shape := ⟨2, ![64, 3]⟩

/-- The result at batch `j`, point `k`, component `n`, for a normalisation `Q` of the batch's quaternion. -/
def pointAt (Q : EReal → EReal → EReal → Fin 4 → EReal) (x : Pts.Idx → EReal) (r t : Tri.Idx → EReal)
    (j : Fin 64) (k : Fin 91) (n : Fin 3) : EReal :=
  outAt (Q (r (ix2 j 0)) (r (ix2 j 1)) (r (ix2 j 2))) (x (ix3 j k 0)) (x (ix3 j k 1)) (x (ix3 j k 2)) (t (ix2 j n)) n

/-- The whole result array as one function of the three argument arrays. -/
def result (Q : EReal → EReal → EReal → Fin 4 → EReal) (x : Pts.Idx → EReal) (r t : Tri.Idx → EReal) :
    Pts.Idx → EReal := fun i => pointAt Q x r t (i 0) (i 1) (i 2)

/-- The square root of a coerced NON-NEGATIVE real is the coerced real square root. -/
theorem sqrt_coe_nonneg {s : ℝ} (hs : 0 ≤ s) : Ideal.sqrt (s : EReal) = ((Real.sqrt s : ℝ) : EReal) := by
  rw [Ideal.sqrt_coe, if_neg (not_lt.mpr hs)]

/-- THE LAW. For real b, c, d the two normalisations agree: with s = 1 + b² + c² + d² > 0, the reciprocal
    root is (√s)⁻¹ = 1 / √s, and v · (√s)⁻¹ = v / √s for each component v. -/
theorem quatMul_eq_quatDiv (b c d : ℝ) : quatMul (b : EReal) c d = quatDiv b c d := by
  have hs : (0 : ℝ) < ((1 + b * b) + c * c) + d * d := by
    have hb := mul_self_nonneg b
    have hc := mul_self_nonneg c
    have hd := mul_self_nonneg d
    linarith
  have hK : normSq (b : EReal) c d = ((((1 + b * b) + c * c) + d * d : ℝ) : EReal) := by
    unfold normSq
    simp only [oneE, LibCoe.ofBits_one, LibCoe.mul_coe, LibCoe.add_coe]
  have hR : sumSq (b : EReal) c d = ((((1 + b * b) + c * c) + d * d : ℝ) : EReal) := by
    unfold sumSq
    rw [Fin.sum_univ_four]
    show zeroE + (oneE * oneE + (b : EReal) * b + (c : EReal) * c + (d : EReal) * d) = _
    simp only [zeroE, oneE, LibCoe.ofBits_zero, LibCoe.ofBits_one, LibCoe.mul_coe, LibCoe.add_coe]
    congr 1
    ring
  have hne : Real.sqrt (((1 + b * b) + c * c) + d * d) ≠ 0 := (Real.sqrt_pos.mpr hs).ne'
  funext k
  unfold quatMul quatDiv
  rw [hK, hR, LibCoe.rsqrt_coe_pos hs, sqrt_coe_nonneg hs.le]
  fin_cases k
  · show ((((Real.sqrt _)⁻¹ : ℝ)) : EReal) = Ideal.div oneE _
    rw [show oneE = ((1 : ℝ) : EReal) from LibCoe.ofBits_one, LibCoe.div_coe_coe _ hne, one_div]
  · show (b : EReal) * _ = Ideal.div (b : EReal) _
    rw [LibCoe.mul_coe, LibCoe.div_coe_coe _ hne, div_eq_mul_inv]
  · show (c : EReal) * _ = Ideal.div (c : EReal) _
    rw [LibCoe.mul_coe, LibCoe.div_coe_coe _ hne, div_eq_mul_inv]
  · show (d : EReal) * _ = Ideal.div (d : EReal) _
    rw [LibCoe.mul_coe, LibCoe.div_coe_coe _ hne, div_eq_mul_inv]

/-- So, where every entry of the rotation input is a real number, the result array is the same function under
    either normalisation. -/
theorem result_mul_eq_div (x : Pts.Idx → EReal) (r t : Tri.Idx → EReal) (hr : ∀ i, ∃ v : ℝ, r i = (v : EReal)) :
    result quatMul x r t = result quatDiv x r t := by
  funext i
  obtain ⟨b, hb⟩ := hr (ix2 (i 0) 0)
  obtain ⟨c, hc⟩ := hr (ix2 (i 0) 1)
  obtain ⟨d, hd⟩ := hr (ix2 (i 0) 2)
  unfold result pointAt
  rw [hb, hc, hd, quatMul_eq_quatDiv]

end Cert.Quat

end
-- ==== Proof.KPay.lean ====
/-
  The kernel body's arithmetic at an index.

  The body's stores read ONE value, built from the three loaded blocks through named intermediate values
  (the generated skeleton's payloads).  Per block row p the body forms the normalised quaternion of the row's
  rotation triple and the nine rotation entries; per point (p, q) it forms the three components of the rotated,
  translated point; it then lays the three component planes side by side on the last axis.  Each lemma below
  reads one of those values at literal coordinates — a row p < 8, a point q < 91, a component n < 3 — in terms
  of the specification's scalar functions.
-/
import proofs.«109500_j20237885898851_1_alg».proof.Proof.Gen.KernelIdeal.Skeleton
import proofs.«109500_j20237885898851_1_alg».proof.Proof.Layout
import proofs.«109500_j20237885898851_1_alg».proof.Proof.Quat
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx Cert.Quat Cert.BlockRead

variable (P0 : Vec Ideal S8x91x3 .f32) (P1 P2 : Vec Ideal S8x3 .f32) (p : Fin 8) (q : Fin 91)

/-- Row p's normalised quaternion, as the body forms it. -/
abbrev qrow : Fin 4 → EReal := quatMul (P1 (ix2 p 0)) (P1 (ix2 p 1)) (P1 (ix2 p 2))

/-! ### The points' coordinate planes and the rotation triple's components -/

theorem xplane : k0_pay2 P0 (ix2 p q) = P0 (ix3 p q 0) := by
  unfold k0_pay2; exact plane_apply 0 (by decide) P0 _ _ p q
theorem yplane : k0_pay3 P0 (ix2 p q) = P0 (ix3 p q 1) := by
  unfold k0_pay3; exact plane_apply 1 (by decide) P0 _ _ p q
theorem zplane : k0_pay4 P0 (ix2 p q) = P0 (ix3 p q 2) := by
  unfold k0_pay4; exact plane_apply 2 (by decide) P0 _ _ p q

theorem bcomp : k0_pay5 P1 (ix1 p) = P1 (ix2 p 0) := by
  unfold k0_pay5; exact col_apply 0 (by decide) P1 _ _ p
theorem ccomp : k0_pay6 P1 (ix1 p) = P1 (ix2 p 1) := by
  unfold k0_pay6; exact col_apply 1 (by decide) P1 _ _ p
theorem dcomp : k0_pay7 P1 (ix1 p) = P1 (ix2 p 2) := by
  unfold k0_pay7; exact col_apply 2 (by decide) P1 _ _ p

/-! ### The normalised quaternion -/

theorem q0 : k0_pay8 P1 (ix1 p) = qrow P1 p 0 := by
  unfold k0_pay8
  show Ideal.rsqrt (((oneE + k0_pay5 P1 (ix1 p) * k0_pay5 P1 (ix1 p)) + k0_pay6 P1 (ix1 p) * k0_pay6 P1 (ix1 p))
    + k0_pay7 P1 (ix1 p) * k0_pay7 P1 (ix1 p)) = _
  rw [bcomp, ccomp, dcomp]
  rfl

theorem q1 : k0_pay9 P1 (ix1 p) = qrow P1 p 1 := by
  unfold k0_pay9
  show k0_pay5 P1 (ix1 p) * k0_pay8 P1 (ix1 p) = _
  rw [bcomp, q0]
  rfl

theorem q2 : k0_pay10 P1 (ix1 p) = qrow P1 p 2 := by
  unfold k0_pay10
  show k0_pay6 P1 (ix1 p) * k0_pay8 P1 (ix1 p) = _
  rw [ccomp, q0]
  rfl

theorem q3 : k0_pay11 P1 (ix1 p) = qrow P1 p 3 := by
  unfold k0_pay11
  show k0_pay7 P1 (ix1 p) * k0_pay8 P1 (ix1 p) = _
  rw [dcomp, q0]
  rfl

/-! ### The rotation entries of a row

Each is read off the body's arithmetic, then the quaternion's components are named (`q0` … `q3`); what is
left is the specification's entry, up to unfolding. The first row's entries and twice the second quaternion
component are computed from the loaded triple; the remaining ones from the quaternion's component vectors. -/

theorem r00 : k0_pay12 P1 (ix1 p) = rot (qrow P1 p) 0 0 := by
  unfold k0_pay12
  show ((k0_pay8 P1 (ix1 p) * k0_pay8 P1 (ix1 p) + k0_pay9 P1 (ix1 p) * k0_pay9 P1 (ix1 p))
      - k0_pay10 P1 (ix1 p) * k0_pay10 P1 (ix1 p)) - k0_pay11 P1 (ix1 p) * k0_pay11 P1 (ix1 p) = _
  rw [q0, q1, q2, q3]
  rfl

theorem r01 : k0_pay13 P1 (ix1 p) = rot (qrow P1 p) 0 1 := by
  unfold k0_pay13
  show (twoE * k0_pay9 P1 (ix1 p)) * k0_pay10 P1 (ix1 p) - (twoE * k0_pay8 P1 (ix1 p)) * k0_pay11 P1 (ix1 p) = _
  rw [q0, q1, q2, q3]
  rfl

theorem r02 : k0_pay14 P1 (ix1 p) = rot (qrow P1 p) 0 2 := by
  unfold k0_pay14
  show (twoE * k0_pay9 P1 (ix1 p)) * k0_pay11 P1 (ix1 p) + (twoE * k0_pay8 P1 (ix1 p)) * k0_pay10 P1 (ix1 p) = _
  rw [q0, q1, q2, q3]
  rfl

theorem twice_q1 : k0_pay15 P1 (ix1 p) = twoE * qrow P1 p 1 := by
  unfold k0_pay15
  show twoE * k0_pay9 P1 (ix1 p) = _
  rw [q1]

theorem r11 : k0_pay16 (k0_pay8 P1) (k0_pay9 P1) (k0_pay10 P1) (k0_pay11 P1) (ix1 p) = rot (qrow P1 p) 1 1 := by
  unfold k0_pay16
  show ((k0_pay8 P1 (ix1 p) * k0_pay8 P1 (ix1 p) - k0_pay9 P1 (ix1 p) * k0_pay9 P1 (ix1 p))
      + k0_pay10 P1 (ix1 p) * k0_pay10 P1 (ix1 p)) - k0_pay11 P1 (ix1 p) * k0_pay11 P1 (ix1 p) = _
  rw [q0, q1, q2, q3]
  rfl

theorem r12 : k0_pay17 (k0_pay8 P1) (k0_pay9 P1) (k0_pay10 P1) (k0_pay11 P1) (ix1 p) = rot (qrow P1 p) 1 2 := by
  unfold k0_pay17
  show (twoE * k0_pay10 P1 (ix1 p)) * k0_pay11 P1 (ix1 p) - (twoE * k0_pay8 P1 (ix1 p)) * k0_pay9 P1 (ix1 p) = _
  rw [q0, q1, q2, q3]
  rfl

theorem r21 : k0_pay18 (k0_pay8 P1) (k0_pay9 P1) (k0_pay10 P1) (k0_pay11 P1) (ix1 p) = rot (qrow P1 p) 2 1 := by
  unfold k0_pay18
  show (twoE * k0_pay10 P1 (ix1 p)) * k0_pay11 P1 (ix1 p) + (twoE * k0_pay8 P1 (ix1 p)) * k0_pay9 P1 (ix1 p) = _
  rw [q0, q1, q2, q3]
  rfl

theorem r22 : k0_pay19 (k0_pay8 P1) (k0_pay9 P1) (k0_pay10 P1) (k0_pay11 P1) (ix1 p) = rot (qrow P1 p) 2 2 := by
  unfold k0_pay19
  show ((k0_pay8 P1 (ix1 p) * k0_pay8 P1 (ix1 p) - k0_pay9 P1 (ix1 p) * k0_pay9 P1 (ix1 p))
      - k0_pay10 P1 (ix1 p) * k0_pay10 P1 (ix1 p)) + k0_pay11 P1 (ix1 p) * k0_pay11 P1 (ix1 p) = _
  rw [q0, q1, q2, q3]
  rfl

/-! ### The first output component's partial sums

x · R₀₀ + y · R₁₀ and z · R₂₀ are formed before the third block is loaded; R₁₀ and R₂₀ are computed on the way,
each spread from the rows along the points. -/

theorem xy_col0 : k0_pay20 (k0_pay2 P0) (k0_pay3 P0) (k0_pay8 P1) (k0_pay10 P1) (k0_pay11 P1) (k0_pay12 P1) (k0_pay15 P1) (ix2 p q)
    = P0 (ix3 p q 0) * rot (qrow P1 p) 0 0 + P0 (ix3 p q 1) * rot (qrow P1 p) 1 0 := by
  unfold k0_pay20
  simp only [addf_apply, mulf_apply, spread_apply, broadcast_apply]
  show k0_pay2 P0 (ix2 p q) * k0_pay12 P1 (ix1 p)
    + k0_pay3 P0 (ix2 p q) * (k0_pay15 P1 (ix1 p) * k0_pay10 P1 (ix1 p) + (twoE * k0_pay8 P1 (ix1 p)) * k0_pay11 P1 (ix1 p)) = _
  rw [xplane, yplane, r00, twice_q1, q0, q2, q3]
  rfl

theorem z_col0 : k0_pay21 (k0_pay4 P0) (k0_pay8 P1) (k0_pay9 P1) (k0_pay10 P1) (k0_pay11 P1) (ix2 p q)
    = P0 (ix3 p q 2) * rot (qrow P1 p) 2 0 := by
  unfold k0_pay21
  simp only [subf_apply, mulf_apply, spread_apply, broadcast_apply]
  show k0_pay4 P0 (ix2 p q) * ((twoE * k0_pay9 P1 (ix1 p)) * k0_pay11 P1 (ix1 p) - (twoE * k0_pay8 P1 (ix1 p)) * k0_pay10 P1 (ix1 p)) = _
  rw [zplane, q0, q1, q2, q3]
  rfl

/-! ### The stored value

The three component planes, laid side by side: component n of point (p, q). Stated first over the store's
operands as variables. -/

section Stack
variable (v2 v4 v6 : FVec Ideal S8x91 .f32) (v38 v45 v59 v66 v80 v87 : FVec Ideal S8 .f32) (v88 : Vec Ideal S8x3 .f32)
  (v95 v98 : FVec Ideal S8x91 .f32)

theorem comp0 : k0_pay1 v2 v4 v6 v38 v45 v59 v66 v80 v87 v88 v95 v98 (ix3 p q 0)
    = (v95 (ix2 p q) + v98 (ix2 p q)) + v88 (ix2 p 0) := by
  unfold k0_pay1
  refine (stack0_apply _ _ _ _ _ p q).trans ?_
  simp only [addf_apply, mulf_apply, spread_apply, spread_col_apply 0 (by decide)]
  rfl

theorem comp1 : k0_pay1 v2 v4 v6 v38 v45 v59 v66 v80 v87 v88 v95 v98 (ix3 p q 1)
    = ((v2 (ix2 p q) * v38 (ix1 p) + v4 (ix2 p q) * v59 (ix1 p)) + v6 (ix2 p q) * v80 (ix1 p)) + v88 (ix2 p 1) := by
  unfold k0_pay1
  refine (stack1_apply _ _ _ _ _ p q).trans ?_
  simp only [addf_apply, mulf_apply, spread_apply, spread_col_apply 1 (by decide)]
  rfl

theorem comp2 : k0_pay1 v2 v4 v6 v38 v45 v59 v66 v80 v87 v88 v95 v98 (ix3 p q 2)
    = ((v2 (ix2 p q) * v45 (ix1 p) + v4 (ix2 p q) * v66 (ix1 p)) + v6 (ix2 p q) * v87 (ix1 p)) + v88 (ix2 p 2) := by
  unfold k0_pay1
  refine (stack2_apply _ _ _ _ _ p q).trans ?_
  simp only [addf_apply, mulf_apply, spread_apply, spread_col_apply 2 (by decide)]
  rfl

end Stack

/-- THE BODY AT AN INDEX: what the body stores at (p, q, n), from the three loaded blocks, is component n of
    point (p, q) of the block rotated by row p's quaternion and moved by row p's translation. -/
theorem body_at (n : Fin 3) :
    k0_pay1 (k0_pay2 P0) (k0_pay3 P0) (k0_pay4 P0) (k0_pay13 P1) (k0_pay14 P1)
      (k0_pay16 (k0_pay8 P1) (k0_pay9 P1) (k0_pay10 P1) (k0_pay11 P1))
      (k0_pay17 (k0_pay8 P1) (k0_pay9 P1) (k0_pay10 P1) (k0_pay11 P1))
      (k0_pay18 (k0_pay8 P1) (k0_pay9 P1) (k0_pay10 P1) (k0_pay11 P1))
      (k0_pay19 (k0_pay8 P1) (k0_pay9 P1) (k0_pay10 P1) (k0_pay11 P1)) P2
      (k0_pay20 (k0_pay2 P0) (k0_pay3 P0) (k0_pay8 P1) (k0_pay10 P1) (k0_pay11 P1) (k0_pay12 P1) (k0_pay15 P1))
      (k0_pay21 (k0_pay4 P0) (k0_pay8 P1) (k0_pay9 P1) (k0_pay10 P1) (k0_pay11 P1)) (ix3 p q n)
    = outAt (qrow P1 p) (P0 (ix3 p q 0)) (P0 (ix3 p q 1)) (P0 (ix3 p q 2)) (P2 (ix2 p n)) n := by
  match n with
  | ⟨0, _⟩ =>
    refine (comp0 p q _ _ _ _ _ _ _ _ _ _ _ _).trans ?_
    rw [xy_col0, z_col0]
    rfl
  | ⟨1, _⟩ =>
    refine (comp1 p q _ _ _ _ _ _ _ _ _ _ _ _).trans ?_
    rw [xplane, yplane, zplane, r01, r11, r21]
    rfl
  | ⟨2, _⟩ =>
    refine (comp2 p q _ _ _ _ _ _ _ _ _ _ _ _).trans ?_
    rw [xplane, yplane, zplane, r02, r12, r22]
    rfl

end Cert.KernelIdeal.Pay

end
-- ==== Proof.KValue.lean ====
/-
  From the blocks to the whole array: what the idealized kernel leaves in its result.

  The grid has eight points; point t stages rows 8t … 8t+7 of each of the three inputs, runs the body, and writes
  rows 8t … 8t+7 of the result back.  The body's stored value at block index (p, q, n) is the specification's
  value at array index (8t + p, q, n) — the body never looks outside row p of its blocks — so every point writes
  ITS BLOCK of one whole-array function, `result quatMul` of the three argument arrays, and the eight blocks tile
  the array.  Hence the array after the run is that function.
-/
import proofs.«109500_j20237885898851_1_alg».proof.Proof.Gen.KernelIdeal.Value
import proofs.«109500_j20237885898851_1_alg».proof.Proof.KPay
import proofs.«109500_j20237885898851_1_alg».proof.Proof.Quat

noncomputable section

namespace Cert.KernelIdeal.Whole

open Cert.KernelIdeal Cert.KernelIdeal.Gen Idealize.ShloMosaic Idealize.ShloMosaic.TcCoe Idealize.SL.Sem
open Idealize.ShloMosaic.ValueIdx Cert.Quat
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the eight grid points: every window's block at point t is block row t,
    and the only block on the other axes. -/
theorem block_rows : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT t WRITES BACK is block t of the specification's array, computed from the argument arrays as the
    region finds them: block index (p, q, n) sits over array index (8t + p, q, n) in every window. -/
theorem wrote_block (c : Dev nD) (t : Fin cfg0.N) :
    (dats m 0 c).flushed 3 t = ((cfg0.win 3).blk t).view.read (Elt Ideal)
      (result quatMul (V m c main_arg0) (V m c main_arg1) (V m c main_arg2)) := by
  rw [Value.flushed3]
  unfold out0_3
  rw [View.canon_unit_zero zero3]
  simp only [View.ld_unit_zero (S := S8x91x3) zero3, View.ld_unit_zero (S := S8x3) zero2]
  funext y
  obtain ⟨p, q, n, rfl⟩ : ∃ (p : Fin 8) (q : Fin 91) (n : Fin 3), y = ix3 p q n := ⟨y 0, y 1, y 2, eq_ix3 y⟩
  refine (Pay.body_at (iblk m c 0 t) (iblk m c 1 t) (iblk m c 2 t) p q n).trans ?_
  obtain ⟨e00, e01, e02, e10, e11, e20, e21, e30, e31, e32⟩ := block_rows t
  have ht : t.val < 8 := t.isLt
  have hp : p.val < 8 := p.isLt
  have hrow : 8 * t.val + p.val < 64 := by omega
  have h3 : ((cfg0.win 3).blk t).view.emb (ix3 p q n) = (ix3 ⟨8 * t.val + p.val, hrow⟩ q n : S64x91x3.Idx) := by
    funext a; apply Fin.ext
    match a with
    | ⟨0, _⟩ => show win0_3.index t (0 : Fin 3) * 8 + 1 * p.val = 8 * t.val + p.val; omega
    | ⟨1, _⟩ => show win0_3.index t (1 : Fin 3) * 91 + 1 * q.val = q.val; omega
    | ⟨2, _⟩ => show win0_3.index t (2 : Fin 3) * 3 + 1 * n.val = n.val; omega
  have h0 : ∀ k : Fin 3, ((cfg0.win 0).blk t).view.emb (ix3 p q k) = (ix3 ⟨8 * t.val + p.val, hrow⟩ q k : S64x91x3.Idx) := by
    intro k; funext a; apply Fin.ext
    match a with
    | ⟨0, _⟩ => show win0_0.index t (0 : Fin 3) * 8 + 1 * p.val = 8 * t.val + p.val; omega
    | ⟨1, _⟩ => show win0_0.index t (1 : Fin 3) * 91 + 1 * q.val = q.val; omega
    | ⟨2, _⟩ => show win0_0.index t (2 : Fin 3) * 3 + 1 * k.val = k.val; omega
  have h1 : ∀ k : Fin 3, ((cfg0.win 1).blk t).view.emb (ix2 p k) = (ix2 ⟨8 * t.val + p.val, hrow⟩ k : S64x3.Idx) := by
    intro k; funext a; apply Fin.ext
    match a with
    | ⟨0, _⟩ => show win0_1.index t (0 : Fin 2) * 8 + 1 * p.val = 8 * t.val + p.val; omega
    | ⟨1, _⟩ => show win0_1.index t (1 : Fin 2) * 3 + 1 * k.val = k.val; omega
  have h2 : ((cfg0.win 2).blk t).view.emb (ix2 p n) = (ix2 ⟨8 * t.val + p.val, hrow⟩ n : S64x3.Idx) := by
    funext a; apply Fin.ext
    match a with
    | ⟨0, _⟩ => show win0_2.index t (0 : Fin 2) * 8 + 1 * p.val = 8 * t.val + p.val; omega
    | ⟨1, _⟩ => show win0_2.index t (1 : Fin 2) * 3 + 1 * n.val = n.val; omega
  show outAt (quatMul (V m c main_arg1 (((cfg0.win 1).blk t).view.emb (ix2 p 0)))
        (V m c main_arg1 (((cfg0.win 1).blk t).view.emb (ix2 p 1)))
        (V m c main_arg1 (((cfg0.win 1).blk t).view.emb (ix2 p 2))))
      (V m c main_arg0 (((cfg0.win 0).blk t).view.emb (ix3 p q 0)))
      (V m c main_arg0 (((cfg0.win 0).blk t).view.emb (ix3 p q 1)))
      (V m c main_arg0 (((cfg0.win 0).blk t).view.emb (ix3 p q 2)))
      (V m c main_arg2 (((cfg0.win 2).blk t).view.emb (ix2 p n))) n
    = result quatMul (V m c main_arg0) (V m c main_arg1) (V m c main_arg2) (((cfg0.win 3).blk t).view.emb (ix3 p q n))
  rw [h0, h0, h0, h1, h1, h1, h2, h3]
  rfl

/-- An index of the array is in point t's block iff each coordinate is in the block's range on its axis. -/
theorem in_block (t : Fin cfg0.N) (i : S64x91x3.Idx) :
    i ∈ ((cfg0.win 3).blk t).view.set ↔ ∀ a : Fin 3, win0_3.index t a * S8x91x3.size a ≤ (i a).val
      ∧ (i a).val < win0_3.index t a * S8x91x3.size a + S8x91x3.size a := by
  show i ∈ ((View.whole main_v0).slice (win0_3.rect t)).set ↔ _
  rw [View.set_slice_whole, Rect.mem_set_unit]
  exact Iff.rfl

/-- The eight blocks tile the result: array row r lies in the block of point r / 8. -/
theorem tiled (i : S64x91x3.Idx) : ∃ t : Fin cfg0.N, (cfg0.win 3).flush t = true ∧ i ∈ ((cfg0.win 3).blk t).view.set := by
  have hi0 : (i 0).val < 64 := (i 0).isLt
  have hi1 : (i 1).val < 91 := (i 1).isLt
  have hi2 : (i 2).val < 3 := (i 2).isLt
  have ht : (i 0).val / 8 < 8 := by omega
  refine ⟨⟨(i 0).val / 8, ht⟩, flush0_3 _, ?_⟩
  obtain ⟨-, -, -, -, -, -, -, e30, e31, e32⟩ := block_rows ⟨(i 0).val / 8, ht⟩
  have e30' : win0_3.index ⟨(i 0).val / 8, ht⟩ (0 : Fin 3) = (i 0).val / 8 := e30
  rw [in_block]
  intro a
  match a with
  | ⟨0, _⟩ =>
    show win0_3.index ⟨(i 0).val / 8, ht⟩ (0 : Fin 3) * 8 ≤ (i 0).val
      ∧ (i 0).val < win0_3.index ⟨(i 0).val / 8, ht⟩ (0 : Fin 3) * 8 + 8
    omega
  | ⟨1, _⟩ =>
    show win0_3.index ⟨(i 0).val / 8, ht⟩ (1 : Fin 3) * 91 ≤ (i 1).val
      ∧ (i 1).val < win0_3.index ⟨(i 0).val / 8, ht⟩ (1 : Fin 3) * 91 + 91
    omega
  | ⟨2, _⟩ =>
    show win0_3.index ⟨(i 0).val / 8, ht⟩ (2 : Fin 3) * 3 ≤ (i 2).val
      ∧ (i 2).val < win0_3.index ⟨(i 0).val / 8, ht⟩ (2 : Fin 3) * 3 + 3
    omega

/-- THE RESULT ARRAY after the run is the specification's function of the argument arrays. -/
theorem final (c : Dev nD) : (dats m 0 c).arrAt 3 cfg0.N
    = result quatMul (m ((c : Thread nD τ).loc main_arg0)) (m ((c : Thread nD τ).loc main_arg1)) (m ((c : Thread nD τ).loc main_arg2)) :=
  (dats m 0 c).arrAt_eq_of_cover 3 _ (fun t _ => wrote_block m c t) tiled

/-- The idealized kernel's run, its result named: every weakly fair execution terminates with the result array at
    the specification's function of the arguments, the arguments unchanged. -/
theorem run : θ_run defs (onTc (τ := τ) (main (F := Ideal))) ⟨m, fun _ => 0, ρ⟩ fun r => ∀ c : Dev nD,
      r.2.mem ((c : Thread nD τ).loc main_v0)
        = result quatMul (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference at an index.

  The reference builds, per batch j, the vector (1, b, c, d) by joining a column of ones to the rotation input,
  sums its squares onto a literal zero, divides the vector by the root of that sum, slices the four components
  out, forms the nine rotation entries, joins them into a row of nine and reshapes that to a 3 x 3 matrix, contracts
  the points against it over the middle axis, and adds the translation spread along the points.  Read stage by
  stage at literal coordinates — a batch j < 64, a point k < 91, a component n < 3 — this is the specification's
  `pointAt` with the DIVIDING normalisation.  The two joins are read here by hand (each element comes from one
  operand, chosen by its coordinate on the joined axis); every other stage has its generated read lemma.
-/
import proofs.«109500_j20237885898851_1_alg».proof.Proof.Gen.ReferenceIdeal.Read
import proofs.«109500_j20237885898851_1_alg».proof.Proof.Quat
import Idealize.ShloMosaic.Lib.Pipeline.Value
import Idealize.ShloMosaic.Lib.ValueIdx

noncomputable section

namespace Cert.ReferenceIdeal.Stages

open Cert.ReferenceIdeal Cert.ReferenceIdeal.Gen Cert.ReferenceIdeal.Read Idealize.ShloMosaic Idealize.ShloMosaic.ValueIdx Cert.Quat
open Finset BigOperators

variable (x0 : (⟨S64x91x3, .f32⟩ : BufTy).Contents (Elt Ideal)) (x1 x2 : (⟨S64x3, .f32⟩ : BufTy).Contents (Elt Ideal))
  (j : Fin 64)

/-- Batch j's quaternion, normalised by division. -/
abbrev qbatch : Fin 4 → EReal := quatDiv (x1 (ix2 j 0)) (x1 (ix2 j 1)) (x1 (ix2 j 2))

/-! ### The vector (1, b, c, d): a column of ones joined to the rotation input -/

theorem joined (k : Fin 4) : val_main_v1 x1 (ix2 j k) = vec4 (x1 (ix2 j 0)) (x1 (ix2 j 1)) (x1 (ix2 j 2)) k := by
  unfold val_main_v1
  match k with
  | ⟨0, _⟩ =>
    refine (concatenate_pair_apply_left (t := S64x4) (s₁ := S64x1) (s₂ := S64x3) (1 : Fin 2) (val_main_v0 (F := Ideal)) x1
      concatenates_S64x1_S64x3_S64x4_d1 (ix2 j (0 : Fin 4)) rfl (ix2 j (0 : Fin 1))
      (fun b => match b with | ⟨0, _⟩ => rfl | ⟨1, _⟩ => rfl)).trans ?_
    rw [val_main_v0_apply]
    rfl
  | ⟨1, _⟩ =>
    exact concatenate_pair_apply_right (t := S64x4) (s₁ := S64x1) (s₂ := S64x3) (1 : Fin 2) (val_main_v0 (F := Ideal)) x1
      concatenates_S64x1_S64x3_S64x4_d1 (ix2 j (1 : Fin 4)) rfl rfl (ix2 j (0 : Fin 3))
      (fun b => match b with | ⟨0, _⟩ => fun _ => rfl | ⟨1, _⟩ => fun h => absurd rfl h) rfl
  | ⟨2, _⟩ =>
    exact concatenate_pair_apply_right (t := S64x4) (s₁ := S64x1) (s₂ := S64x3) (1 : Fin 2) (val_main_v0 (F := Ideal)) x1
      concatenates_S64x1_S64x3_S64x4_d1 (ix2 j (2 : Fin 4)) rfl rfl (ix2 j (1 : Fin 3))
      (fun b => match b with | ⟨0, _⟩ => fun _ => rfl | ⟨1, _⟩ => fun h => absurd rfl h) rfl
  | ⟨3, _⟩ =>
    exact concatenate_pair_apply_right (t := S64x4) (s₁ := S64x1) (s₂ := S64x3) (1 : Fin 2) (val_main_v0 (F := Ideal)) x1
      concatenates_S64x1_S64x3_S64x4_d1 (ix2 j (3 : Fin 4)) rfl rfl (ix2 j (2 : Fin 3))
      (fun b => match b with | ⟨0, _⟩ => fun _ => rfl | ⟨1, _⟩ => fun h => absurd rfl h) rfl

/-! ### Its squared length, and the normalised quaternion -/

theorem sq_len : val_main_v3 x1 (ix1 j) = sumSq (x1 (ix2 j 0)) (x1 (ix2 j 1)) (x1 (ix2 j 2)) := by
  rw [val_main_v3_apply]
  unfold sumSq
  refine congrArg (zeroE + ·) (Finset.sum_congr rfl fun k _ => ?_)
  rw [val_main_v2_apply]
  have hk : idx_main_v3 (ix1 j) k = ix2 j k := funext fun a => match a with | ⟨0, _⟩ => rfl | ⟨1, _⟩ => rfl
  rw [hk, joined]
  rfl

theorem normalised (k : Fin 4) : val_main_v7 x1 (ix2 j k) = qbatch x1 j k := by
  rw [val_main_v7_apply, val_main_v6_apply, val_main_v5_apply, val_main_v4_apply]
  have hk : idx_main_v4 (idx_main_v6 (ix2 j k)) = ix1 j := funext fun a => match a with | ⟨0, _⟩ => rfl
  rw [hk, sq_len, joined]
  rfl

theorem qa : val_main_v9 x1 (ix1 j) = qbatch x1 j 0 := by
  rw [val_main_v9_apply, val_main_v8_apply]
  have hk : idx_main_v8 (idx_main_v9 (ix1 j)) = ix2 j 0 :=
    funext fun a => match a with | ⟨0, _⟩ => Fin.ext (Nat.div_one _) | ⟨1, _⟩ => rfl
  rw [hk, normalised]

theorem qb : val_main_v11 x1 (ix1 j) = qbatch x1 j 1 := by
  rw [val_main_v11_apply, val_main_v10_apply]
  have hk : idx_main_v10 (idx_main_v11 (ix1 j)) = ix2 j 1 :=
    funext fun a => match a with | ⟨0, _⟩ => Fin.ext (Nat.div_one _) | ⟨1, _⟩ => rfl
  rw [hk, normalised]

theorem qc : val_main_v13 x1 (ix1 j) = qbatch x1 j 2 := by
  rw [val_main_v13_apply, val_main_v12_apply]
  have hk : idx_main_v12 (idx_main_v13 (ix1 j)) = ix2 j 2 :=
    funext fun a => match a with | ⟨0, _⟩ => Fin.ext (Nat.div_one _) | ⟨1, _⟩ => rfl
  rw [hk, normalised]

theorem qd : val_main_v15 x1 (ix1 j) = qbatch x1 j 3 := by
  rw [val_main_v15_apply, val_main_v14_apply]
  have hk : idx_main_v14 (idx_main_v15 (ix1 j)) = ix2 j 3 :=
    funext fun a => match a with | ⟨0, _⟩ => Fin.ext (Nat.div_one _) | ⟨1, _⟩ => rfl
  rw [hk, normalised]

/-! ### The nine rotation entries, each a vector over the batches -/

theorem e00 : val_main_v22 x1 (ix1 j) = rot (qbatch x1 j) 0 0 := by
  show ((val_main_v9 x1 (ix1 j) * val_main_v9 x1 (ix1 j) + val_main_v11 x1 (ix1 j) * val_main_v11 x1 (ix1 j))
      - val_main_v13 x1 (ix1 j) * val_main_v13 x1 (ix1 j)) - val_main_v15 x1 (ix1 j) * val_main_v15 x1 (ix1 j) = _
  rw [qa, qb, qc, qd]
  rfl

theorem e01 : val_main_v29 x1 (ix1 j) = rot (qbatch x1 j) 0 1 := by
  show (twoE * val_main_v11 x1 (ix1 j)) * val_main_v13 x1 (ix1 j) - (twoE * val_main_v9 x1 (ix1 j)) * val_main_v15 x1 (ix1 j) = _
  rw [qa, qb, qc, qd]
  rfl

theorem e02 : val_main_v36 x1 (ix1 j) = rot (qbatch x1 j) 0 2 := by
  show (twoE * val_main_v11 x1 (ix1 j)) * val_main_v15 x1 (ix1 j) + (twoE * val_main_v9 x1 (ix1 j)) * val_main_v13 x1 (ix1 j) = _
  rw [qa, qb, qc, qd]
  rfl

theorem e10 : val_main_v43 x1 (ix1 j) = rot (qbatch x1 j) 1 0 := by
  show (twoE * val_main_v11 x1 (ix1 j)) * val_main_v13 x1 (ix1 j) + (twoE * val_main_v9 x1 (ix1 j)) * val_main_v15 x1 (ix1 j) = _
  rw [qa, qb, qc, qd]
  rfl

theorem e11 : val_main_v50 x1 (ix1 j) = rot (qbatch x1 j) 1 1 := by
  show ((val_main_v9 x1 (ix1 j) * val_main_v9 x1 (ix1 j) - val_main_v11 x1 (ix1 j) * val_main_v11 x1 (ix1 j))
      + val_main_v13 x1 (ix1 j) * val_main_v13 x1 (ix1 j)) - val_main_v15 x1 (ix1 j) * val_main_v15 x1 (ix1 j) = _
  rw [qa, qb, qc, qd]
  rfl

theorem e12 : val_main_v57 x1 (ix1 j) = rot (qbatch x1 j) 1 2 := by
  show (twoE * val_main_v13 x1 (ix1 j)) * val_main_v15 x1 (ix1 j) - (twoE * val_main_v9 x1 (ix1 j)) * val_main_v11 x1 (ix1 j) = _
  rw [qa, qb, qc, qd]
  rfl

theorem e20 : val_main_v64 x1 (ix1 j) = rot (qbatch x1 j) 2 0 := by
  show (twoE * val_main_v11 x1 (ix1 j)) * val_main_v15 x1 (ix1 j) - (twoE * val_main_v9 x1 (ix1 j)) * val_main_v13 x1 (ix1 j) = _
  rw [qa, qb, qc, qd]
  rfl

theorem e21 : val_main_v71 x1 (ix1 j) = rot (qbatch x1 j) 2 1 := by
  show (twoE * val_main_v13 x1 (ix1 j)) * val_main_v15 x1 (ix1 j) + (twoE * val_main_v9 x1 (ix1 j)) * val_main_v11 x1 (ix1 j) = _
  rw [qa, qb, qc, qd]
  rfl

theorem e22 : val_main_v78 x1 (ix1 j) = rot (qbatch x1 j) 2 2 := by
  show ((val_main_v9 x1 (ix1 j) * val_main_v9 x1 (ix1 j) - val_main_v11 x1 (ix1 j) * val_main_v11 x1 (ix1 j))
      - val_main_v13 x1 (ix1 j) * val_main_v13 x1 (ix1 j)) + val_main_v15 x1 (ix1 j) * val_main_v15 x1 (ix1 j) = _
  rw [qa, qb, qc, qd]
  rfl

/-! ### The row of nine, and the 3 x 3 matrix it is reshaped to -/

/-- The nine entry vectors in the order they are joined: row by row. -/
abbrev entries : Fin 9 → (⟨S64, .f32⟩ : BufTy).Contents (Elt Ideal) :=
  ![val_main_v22 x1, val_main_v29 x1, val_main_v36 x1, val_main_v43 x1, val_main_v50 x1, val_main_v57 x1,
    val_main_v64 x1, val_main_v71 x1, val_main_v78 x1]

/-- The same, each given its unit axis, as the join takes them. -/
abbrev columns : Fin 9 → (⟨S64x1, .f32⟩ : BufTy).Contents (Elt Ideal) :=
  ![val_main_v79 x1, val_main_v80 x1, val_main_v81 x1, val_main_v82 x1, val_main_v83 x1, val_main_v84 x1,
    val_main_v85 x1, val_main_v86 x1, val_main_v87 x1]

theorem column_at (e : Fin 9) : columns x1 e (ix2 j (0 : Fin 1)) = entries x1 e (ix1 j) := by
  have hk : ∀ i' : S64x1.Idx, i' = ix2 j (0 : Fin 1) → (fun a => match a with | ⟨0, _⟩ => ⟨(i' 0).val, (i' 0).isLt⟩ : S64.Idx) = ix1 j :=
    fun i' h => by subst h; exact funext fun a => match a with | ⟨0, _⟩ => rfl
  fin_cases e
  · exact (val_main_v79_apply x1 _).trans (congrArg _ (hk _ rfl))
  · exact (val_main_v80_apply x1 _).trans (congrArg _ (hk _ rfl))
  · exact (val_main_v81_apply x1 _).trans (congrArg _ (hk _ rfl))
  · exact (val_main_v82_apply x1 _).trans (congrArg _ (hk _ rfl))
  · exact (val_main_v83_apply x1 _).trans (congrArg _ (hk _ rfl))
  · exact (val_main_v84_apply x1 _).trans (congrArg _ (hk _ rfl))
  · exact (val_main_v85_apply x1 _).trans (congrArg _ (hk _ rfl))
  · exact (val_main_v86_apply x1 _).trans (congrArg _ (hk _ rfl))
  · exact (val_main_v87_apply x1 _).trans (congrArg _ (hk _ rfl))

theorem row_of_nine (e : Fin 9) : val_main_v88 x1 (ix2 j e) = entries x1 e (ix1 j) := by
  unfold val_main_v88
  show concatenate S64x9 1 (List.ofFn fun n : Fin 9 => (⟨S64x1, columns x1 n⟩ : (s : Shape) × (s.Idx → _))) _ (ix2 j e) = _
  refine (concatenate_ofFn_unit_apply (t := S64x9) (s₁ := S64x1) (1 : Fin 2) (columns x1) _ rfl rfl (ix2 j e) e rfl
    (ix2 j (0 : Fin 1)) (fun b hb => match b with | ⟨0, _⟩ => rfl | ⟨1, _⟩ => absurd rfl hb)).trans ?_
  exact column_at x1 j e

theorem matrix_at (mm nn : Fin 3) : val_main_v89 x1 (ix3 j mm nn) = rot (qbatch x1 j) mm nn := by
  rw [val_main_v89_apply]
  have hk : idx_main_v89 (ix3 j mm nn)
      = ix2 j (⟨3 * mm.val + nn.val, by have := mm.isLt; have := nn.isLt; omega⟩ : Fin 9) :=
    funext fun a => match a with
      | ⟨0, _⟩ => Fin.ext (by
          have := j.isLt; have := mm.isLt; have := nn.isLt
          show ((j.val * 3 + mm.val) * 3 + nn.val) / 9 = j.val; omega)
      | ⟨1, _⟩ => Fin.ext (by
          have := j.isLt; have := mm.isLt; have := nn.isLt
          show ((j.val * 3 + mm.val) * 3 + nn.val) % 9 = 3 * mm.val + nn.val; omega)
  rw [hk, row_of_nine]
  clear hk
  match mm, nn with
  | ⟨0, _⟩, ⟨0, _⟩ => exact e00 x1 j
  | ⟨0, _⟩, ⟨1, _⟩ => exact e01 x1 j
  | ⟨0, _⟩, ⟨2, _⟩ => exact e02 x1 j
  | ⟨1, _⟩, ⟨0, _⟩ => exact e10 x1 j
  | ⟨1, _⟩, ⟨1, _⟩ => exact e11 x1 j
  | ⟨1, _⟩, ⟨2, _⟩ => exact e12 x1 j
  | ⟨2, _⟩, ⟨0, _⟩ => exact e20 x1 j
  | ⟨2, _⟩, ⟨1, _⟩ => exact e21 x1 j
  | ⟨2, _⟩, ⟨2, _⟩ => exact e22 x1 j

/-! ### The contraction and the translation -/

/-- THE REFERENCE AT AN INDEX: its result at (j, k, n) is the specification's, with the dividing normalisation. -/
theorem ref_at (k : Fin 91) (n : Fin 3) : val_main_v93 x0 x1 x2 (ix3 j k n) = pointAt quatDiv x0 x1 x2 j k n := by
  rw [val_main_v93_apply, val_main_v90_apply, val_main_v92_apply, val_main_v91_apply, Fin.sum_univ_three]
  have hl : ∀ mm : Fin 3, lidx_main_v90 (ix3 j k n) mm = ix3 j k mm :=
    fun mm => funext fun a => match a with | ⟨0, _⟩ => rfl | ⟨1, _⟩ => rfl | ⟨2, _⟩ => rfl
  have hr : ∀ mm : Fin 3, ridx_main_v90 (ix3 j k n) mm = ix3 j mm n :=
    fun mm => funext fun a => match a with | ⟨0, _⟩ => rfl | ⟨1, _⟩ => rfl | ⟨2, _⟩ => rfl
  have ht : idx_main_v91 (idx_main_v92 (ix3 j k n)) = ix2 j n :=
    funext fun a => match a with | ⟨0, _⟩ => rfl | ⟨1, _⟩ => rfl
  rw [hl, hl, hl, hr, hr, hr, ht, matrix_at, matrix_at, matrix_at]
  rfl

/-- The reference's whole result is the specification's array. -/
theorem ref_eq : val_main_v93 x0 x1 x2 = result quatDiv x0 x1 x2 := by
  funext i
  rw [eq_ix3 i]
  exact ref_at x0 x1 x2 (i 0) (i 1) (i 2)

end Cert.ReferenceIdeal.Stages

end
-- ==== Proof.Finite.lean ====
/-
  What the precondition gives: the rotation input holds real numbers.

  The precondition is the conjunction of three tests, one per input: every entry's absolute value is below
  +infinity.  Each test is a reduction by "and" over the whole array of an elementwise comparison, so where the
  conjunction is 1 every comparison is 1; and on the extended reals max(x, -x) < +infinity excludes exactly the
  two infinities, leaving x the coercion of a real.  Only the second input's test is used.
-/
import proofs.«109500_j20237885898851_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The pattern of +infinity denotes the top of the extended reals. -/
theorem ofBits_inf : Ideal.ofBits .f32 0x7F800000#32 = (⊤ : EReal) := by
  simp [Ideal.ofBits, Ideal.ieee]

/-- An extended real whose absolute value is below +infinity is a real number. -/
theorem real_of_abs_lt_top (x : EReal) (h : Ideal.cmp .olt (max x (-x)) (⊤ : EReal) = 1#1) : ∃ v : ℝ, x = (v : EReal) := by
  induction x using EReal.rec with
  | bot => simp [Ideal.cmp] at h
  | coe r => exact ⟨r, rfl⟩
  | top => simp [Ideal.cmp] at h

instance : Subsingleton S_.Idx := ⟨fun a b => funext fun d => d.elim0⟩

/-- Under the precondition every entry of the second input (the rotation triples) is a real number. -/
theorem rotation_real [Facts] (a0 : FVec Ideal S64x91x3 .f32) (a1 a2 : FVec Ideal S64x3 .f32)
    (h : fn (F := Ideal) a0 a1 a2 = fun _ => 1#1) : ∀ i, ∃ v : ℝ, a1 i = (v : EReal) := by
  have h0 := congrFun h ix0
  dsimp only [fn] at h0
  obtain ⟨h01, -⟩ := IntOp.andi_eq_one.1 h0
  obtain ⟨-, h1⟩ := IntOp.andi_eq_one.1 h01
  intro i
  have hi := Host.reduce_andi_all _ _ _ _ ix0 h1 i
  have hx : Ideal.cmp .olt (max (a1 i) (-(a1 i))) (Ideal.ofBits .f32 0x7F800000#32) = 1#1 := hi
  rw [ofBits_inf] at hx
  exact real_of_abs_lt_top _ hx

end Cert.Finite

end
-- ==== Proof.lean ====
/-
  A batch of points rotated by per-batch quaternions and translated: the Pallas kernel against its jnp reference,
  over the extended reals.

  Each of 64 batches carries 91 points (x, y, z), a rotation triple (b, c, d) and a translation (t₀, t₁, t₂).  The
  triple stands for the quaternion (1, b, c, d); normalised to q, it gives a rotation matrix R(q), and the result is
  (x, y, z) · R(q) + t for every point.  The kernel works through the batches eight at a time and expands the
  product as nine multiply-adds per row of R(q); the reference builds R(q) as a [64, 3, 3] array and contracts the
  points against it.  Entry by entry and term by term the two group their arithmetic identically, and sums of three
  terms are sums of three terms on the extended reals whatever their values, so the results agree as soon as the
  two NORMALISED QUATERNIONS agree.  There they differ: the kernel multiplies (1, b, c, d) by the reciprocal square
  root of 1 + b² + c² + d², the reference divides it by the square root of 0 + (1·1 + b² + c² + d²).  For real
  b, c, d both are (1, b, c, d) / √(1 + b² + c² + d²) (Proof/Quat.lean, `quatMul_eq_quatDiv`), and the precondition
  makes the rotation input real (Proof/Finite.lean); the points and the translations are never asked to be finite.

  The kernel's side (Proof/Layout.lean, KPay.lean, KValue.lean): the body's stored value at a block index is the
  specification's value at the array index under it, the eight blocks tile the result, so the result array after the
  run is the specification's function with the multiplying normalisation.  The reference's side (Proof/RefValue.lean):
  its operations read one at a time at an index give the same function with the dividing normalisation.

  The frames: both kernel programs load and store whole blocks through literal rectangles, and their runs — hence
  termination, absence of faults and the arguments' preservation — are the generated ones; the reference has no
  kernel, and its frame is its run with the result forgotten.  No operation of the kernel was rewritten on the way to
  its idealized form, so there is nothing to preserve.
-/
import proofs.«109500_j20237885898851_1_alg».proof.Defs
import proofs.«109500_j20237885898851_1_alg».proof.Proof.Gen.Kernel
import proofs.«109500_j20237885898851_1_alg».proof.Proof.Gen.Kernel.Skeleton
import proofs.«109500_j20237885898851_1_alg».proof.Proof.Gen.Kernel.Launch
import proofs.«109500_j20237885898851_1_alg».proof.Proof.Gen.Kernel.Points
import proofs.«109500_j20237885898851_1_alg».proof.Proof.Gen.Kernel.Frame
import proofs.«109500_j20237885898851_1_alg».proof.Proof.Gen.KernelIdeal
import proofs.«109500_j20237885898851_1_alg».proof.Proof.Gen.KernelIdeal.Skeleton
import proofs.«109500_j20237885898851_1_alg».proof.Proof.Gen.KernelIdeal.Launch
import proofs.«109500_j20237885898851_1_alg».proof.Proof.Gen.KernelIdeal.Points
import proofs.«109500_j20237885898851_1_alg».proof.Proof.Gen.KernelIdeal.Frame
import proofs.«109500_j20237885898851_1_alg».proof.Proof.Gen.ReferenceIdeal
import proofs.«109500_j20237885898851_1_alg».proof.Proof.Gen.Pre_finite_inputs
import proofs.«109500_j20237885898851_1_alg».proof.Proof.Gen.KernelIdeal.Value
import proofs.«109500_j20237885898851_1_alg».proof.Proof.Gen.ReferenceIdeal.Run
import proofs.«109500_j20237885898851_1_alg».proof.Proof.Gen.ReferenceIdeal.Read
import proofs.«109500_j20237885898851_1_alg».proof.Proof.KValue
import proofs.«109500_j20237885898851_1_alg».proof.Proof.RefValue
import proofs.«109500_j20237885898851_1_alg».proof.Proof.Finite
import Idealize.ShloMosaic.Adequacy
import Idealize.ShloMosaic.Init

noncomputable section

namespace Cert.Proof

open Idealize.ShloMosaic Idealize.ShloMosaic.TcCoe Idealize.SL.Sem Cert.Quat

/-- The word-level kernel runs, faults nowhere and leaves its arguments as they were. -/
theorem frame_kernel : Cert.frame_Kernel := fun m ρ _ => Cert.Kernel.Gen.frame m ρ

/-- So does its idealized form. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the first satisfying the precondition, both idealized programs
    end with the same result: the kernel's is the specification's array under the multiplying normalisation, the
    reference's the same array under the dividing one, and the rotation input is real. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.Stages.ref_eq, (hagree c).1, (hagree c).2.1, (hagree c).2.2]
  exact (result_mul_eq_div _ _ _ (Cert.Finite.rotation_real _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
